-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144 : Shape := ⟨1, ![262144]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S262144x128 .f32) (main_arg1 : IVec S262144 1) (main_arg2 : FVec F S128x128 .f32) (main_arg3 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S262144x128 : Shape := ⟨2, ![262144, 128]⟩
abbrev S262144 : Shape := ⟨1, ![262144]⟩
abbrev S128x128 : Shape := ⟨2, ![128, 128]⟩
abbrev S128 : Shape := ⟨1, ![128]⟩
abbrev S64x1x4096 : Shape := ⟨3, ![64, 1, 4096]⟩
abbrev S1x128 : Shape := ⟨2, ![1, 128]⟩
abbrev S4096x128 : Shape := ⟨2, ![4096, 128]⟩
abbrev S1x1x4096 : Shape := ⟨3, ![1, 1, 4096]⟩
abbrev S1x4096 : Shape := ⟨2, ![1, 4096]⟩
abbrev S4096x1 : Shape := ⟨2, ![4096, 1]⟩

abbrev nBuf : Space → Nat
  | .hbm => 9
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S262144, .i1⟩
  | .hbm, ⟨2, _⟩ => ⟨S128x128, .f32⟩
  | .hbm, ⟨3, _⟩ => ⟨S128, .f32⟩
  | .hbm, ⟨4, _⟩ => ⟨S262144, .f32⟩
  | .hbm, ⟨5, _⟩ => ⟨S64x1x4096, .f32⟩
  | .hbm, ⟨6, _⟩ => ⟨S128x128, .f32⟩
  | .hbm, ⟨7, _⟩ => ⟨S1x128, .f32⟩
  | .hbm, ⟨8, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S1x1x4096, .f32⟩
  | .local _ .vmem, ⟨3, _⟩ => ⟨S1x1x4096, .f32⟩
  | .local _ .vmem, ⟨4, _⟩ => ⟨S128x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S262144_S64x1x4096 : S262144.ShapeCasts S64x1x4096
  transposes_S128x128_S128x128_1_0 : S128x128.Transposes [1, 0] S128x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S4096x1 : S1x4096.ShapeCasts S4096x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  broadcasts_S4096x1_S4096x128 : S4096x1.Broadcasts S4096x128
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S64x1x4096.size a
  hwx0_1 : ∀ i : grid0.Coords, EltTy.bits .f32 = 32 ∨ (Rect.block (s := S64x1x4096) S1x1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S262144x128.size a
  hwx0_4 : ∀ i : grid0.Coords, EltTy.bits .f32 = 32 ∨ (Rect.block (s := S262144x128) S4096x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144 : Shape := ⟨1, ![262144]⟩
abbrev S128x128 : Shape := ⟨2, ![128, 128]⟩
abbrev S128 : Shape := ⟨1, ![128]⟩
abbrev S1x128 : Shape := ⟨2, ![1, 128]⟩
abbrev S262144x1 : Shape := ⟨2, ![262144, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144, .i1⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S262144x128, .f32⟩
  | .hbm, ⟨6, _⟩ => ⟨S1x128, .f32⟩
  | .hbm, ⟨7, _⟩ => ⟨S262144x128, .f32⟩
  | .hbm, ⟨8, _⟩ => ⟨S262144x128, .f32⟩
  | .hbm, ⟨9, _⟩ => ⟨S262144x1, .i1⟩
  | .hbm, ⟨10, _⟩ => ⟨S_, .f32⟩
  | .hbm, ⟨11, _⟩ => ⟨S262144x128, .i1⟩
  | .hbm, ⟨12, _⟩ => ⟨S262144x128, .f32⟩
  | .hbm, ⟨13, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S_S262144x128 : S_.BroadcastsInDim S262144x128 (![] : Fin 0 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.LibPlainDot.lean ====
/-
  A matrix product of an [R, K] operand by a [K, C] operand, contracted over the one shared axis (the
  dimension numbers lhs_contracting = [1], rhs_contracting = [0], no batch axes), read at an entry (p, q) on the
  extended reals: the plain sum over k of l(p, k) · r(k, q). Stated for ANY dimension-number record of that
  form, so that it serves every such product whatever the record's name and whatever R, K, C are.
-/
import Idealize.ShloMosaic.PureOps.Ideal.Laws
import Idealize.ShloMosaic.Lib.ValueIdx

noncomputable section

namespace Idealize.ShloMosaic.PlainDot

open Idealize.ShloMosaic Idealize.ShloMosaic.ValueIdx

variable {R K C : ℕ}

/-- The dimension numbers of a plain row-by-column product: the left operand's axis 1 is contracted with the right
    operand's axis 0; the left operand's axis 0 and the right operand's axis 1 survive, in that order; no batch axes. -/
structure IsPlain (d : DotDims ⟨2, ![R, K]⟩ ⟨2, ![K, C]⟩ ⟨2, ![R, C]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![R, K]⟩ ⟨2, ![K, C]⟩ ⟨2, ![R, C]⟩}

/-- A coordinate of an index depends on the axis' position only. -/
private theorem coord_congr {s : Shape} (j : s.Idx) (a b : Nat) (ha : a < s.rank) (hb : b < s.rank) (e : a = b) :
    (j ⟨a, ha⟩).val = (j ⟨b, hb⟩).val := by subst e; rfl

/-- The left operand's row is the result's row. -/
theorem lhs_row (h : IsPlain d) (j : (⟨2, ![R, C]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by simp [h.lb, h.ln])

/-- The right operand's column is the result's column. -/
theorem rhs_col (h : IsPlain d) (j : (⟨2, ![R, C]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by simp [h.lb, h.ln, h.rn])

theorem contr_rank (h : IsPlain d) : d.contr.rank = 1 := by
  rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The product read at (p, q): the sum over the contracted axis. -/
theorem sum_apply (h : IsPlain d) {φ₁ φ₂ : FTy} (l : FVec Ideal ⟨2, ![R, K]⟩ φ₁) (r : FVec Ideal ⟨2, ![K, C]⟩ φ₂)
    (p : Fin R) (q : Fin C) :
    (∑ k : d.contr.Idx, l (d.lhsIdx (ix2 p q) k) * r (d.rhsIdx (ix2 p q) k)) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k := funext fun a => Fin.ext (by
    match a with
    | ⟨0, _⟩ => exact lhs_row h _ _
    | ⟨1, _⟩ => exact (d.lhsIdx_val_of_single h.lc _ _).trans hk)
  have er : d.rhsIdx (ix2 p q) ((contrEquiv1 d K (contr_rank h) (contr_size h)).symm k) = ix2 k q := funext fun a => Fin.ext (by
    match a with
    | ⟨0, _⟩ => exact (d.rhsIdx_val_of_single h.rc _ _).trans hk
    | ⟨1, _⟩ => exact rhs_col h _ _)
  rw [el, er]

/-- A kernel's matrix product into a zero accumulator, read at (p, q). -/
theorem matmul_zero_apply (h : IsPlain d) {φ₁ φ₂ : FTy} (prec : Option ContractPrecision)
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact sum_apply h l r p q

/-- The host's matrix product read at (p, q). -/
theorem dotGeneral_apply (h : IsPlain d) {φ₁ φ₂ : FTy} (prec : Option ContractPrecision) (sched : HostSchedule)
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact sum_apply h l r p q

end Idealize.ShloMosaic.PlainDot

end
-- ==== Proof.Spec.lean ====
/-
  The function both programs compute, and the one scalar law that joins their two spellings of it.

  For an activation matrix x of 262144 rows and 128 columns, a weight matrix W (128 outputs by 128 inputs), a bias b
  and one mask bit per row, the result's entry (r, j) is the affine map's entry  sum_k x(r, k) * W(j, k) + b(j)
  where row r's bit is set, and zero where it is clear. The reference selects between that entry and zero on the
  bit; the kernel multiplies the entry by the bit converted to a number (1 or 0). On the extended reals a product
  with 1 is the other factor and a product with 0 is 0 whatever the other factor is, infinite ones included, so the
  two spellings agree on every input.
-/
import Idealize.ShloMosaic.PureOps.Ideal.Laws
import Idealize.ShloMosaic.Lib.ValueIdx

noncomputable section

namespace Cert.MaskedLinear

open Idealize.ShloMosaic Idealize.ShloMosaic.ValueIdx

/-- The masked affine map, entry by entry: row `i 0`, output feature `i 1`. -/
def masked (x : FVec Ideal ⟨2, ![262144, 128]⟩ .f32) (a : IVec ⟨1, ![262144]⟩ 1) (W : FVec Ideal ⟨2, ![128, 128]⟩ .f32)
    (b : FVec Ideal ⟨1, ![128]⟩ .f32) : FVec Ideal ⟨2, ![262144, 128]⟩ .f32 :=
  fun i => Scalar.select (a (ix1 (i 0))) ((∑ k : Fin 128, x (ix2 (i 0) k) * W (ix2 (i 1) k)) + b (ix1 (i 1))) 0

/-- A product with a bit read as a number is the selection on that bit between the other factor and zero: the bit is
    0 or 1, `v * 1 = v`, and `v * 0 = 0` for every extended real `v`. -/
theorem mul_bit (v : EReal) (c : BitVec 1) : v * ((c.toNat : ℝ) : EReal) = Scalar.select c v 0 := by
  by_cases h : c = 1#1
  · subst h
    rw [select_one]
    simp
  · have h0 := eq_zero_of_ne_one h
    subst h0
    rw [select_zero]
    simp

end Cert.MaskedLinear

end
-- ==== Proof.Body.lean ====
/-
  What the kernel's body stores, entry by entry, from the four blocks it loads.

  At one grid point the body holds a block of 4096 rows of x, the mask bits of those rows converted to numbers and
  laid out as one lane-major row [1, 1, 4096], the transposed weight matrix [128 inputs, 128 outputs] and the bias
  as one row [1, 128]. It multiplies the row block by the transposed weights (a contraction over the 128 inputs
  into a zero accumulator), adds the bias row to every row, turns the mask row into a column and multiplies every
  row by its own mask entry. So entry (p, q) of what it stores is
      (sum_k xblock(p, k) * wt(k, q) + bias(0, q)) * maskrow(0, 0, p).
-/
import proofs.«114817_g37915971289107_cont_8to1_b_591_4_alg».proof.Proof.Gen.KernelIdeal.Skeleton
import proofs.«114817_g37915971289107_cont_8to1_b_591_4_alg».proof.Proof.LibPlainDot
import proofs.«114817_g37915971289107_cont_8to1_b_591_4_alg».proof.Proof.Spec
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.MaskedLinear

/-- The body's product is a plain rows-by-columns one: x's axis 1 against the transposed weights' axis 0. -/
theorem plain : PlainDot.IsPlain dot_S4096x128_S128x128_S4096x128_1_0_0_1_n_n := ⟨rfl, rfl, rfl, rfl, rfl, rfl⟩

/-- The lane-major mask row turned into a column: entry (p, 0) of the column is entry (0, 0, p) of the row, the
    two casts keeping each entry's position in row-major order. -/
theorem mask_col_apply (v4 : Vec Ideal S1x1x4096 .f32) (p : Fin 4096) (u : Fin 1) :
    shapeCast S4096x1 (shapeCast S1x4096 v4 shapeCasts_S1x1x4096_S1x4096) shapeCasts_S1x4096_S4096x1 (ix2 p u)
      = v4 (ix3 (0 : Fin 1) (0 : Fin 1) p) := by
  have hu : u.val = 0 := by omega
  refine (shapeCast_apply _ shapeCasts_S1x4096_S4096x1 (ix2 p u) (ix2 (0 : Fin 1) p) ?_).trans ?_
  · rw [Shape.rowMajor_val_two, Shape.rowMajor_val_two]
    show 0 * 4096 + p.val = p.val * 1 + u.val
    omega
  · refine shapeCast_apply v4 shapeCasts_S1x1x4096_S1x4096 (ix2 (0 : Fin 1) p) (ix3 (0 : Fin 1) (0 : Fin 1) p) ?_
    rw [Shape.rowMajor_val_three, Shape.rowMajor_val_two]
    show (0 * 1 + 0) * 4096 + p.val = 0 * 4096 + p.val
    omega

/-- A column broadcast along the lanes: every entry of row p is the column's entry p. -/
theorem col_bcast_apply (col : FVec Ideal S4096x1 .f32) (p : Fin 4096) (q : Fin 128) :
    broadcastTo S4096x128 col broadcasts_S4096x1_S4096x128 (ix2 p q) = col (ix2 p (0 : Fin 1)) := by
  refine broadcastTo_apply col broadcasts_S4096x1_S4096x128 (ix2 p q) (ix2 p (0 : Fin 1)) fun ax => ?_
  match ax with
  | ⟨0, _⟩ =>
    show p.val = if (4096 : Nat) = 1 then 0 else p.val
    rw [if_neg (by decide)]
  | ⟨1, _⟩ =>
    show 0 = if (1 : Nat) = 1 then 0 else q.val
    rw [if_pos rfl]

/-- The stored value at (p, q). -/
theorem pay_apply (v0 : Vec Ideal S4096x128 .f32) (v1 : Vec Ideal S128x128 .f32) (v4 : Vec Ideal S1x1x4096 .f32)
    (v7 : Vec Ideal S1x128 .f32) (p : Fin 4096) (q : Fin 128) :
    k0_pay1 (F := Ideal) v0 v1 v4 v7 (ix2 p q)
      = ((∑ k : Fin 128, v0 (ix2 p k) * v1 (ix2 k q)) + v7 (ix2 (0 : Fin 1) q)) * v4 (ix3 (0 : Fin 1) (0 : Fin 1) p) := by
  unfold k0_pay1
  rw [mulf_apply, addf_apply, col_bcast_apply, mask_col_apply, shapeCast_self, shapeCast_self,
    broadcastTo_1b_ab_apply]
  unfold matmul
  rw [PlainDot.matmul_zero_apply plain]

/-- The stored value at (p, q) is the masked affine map at (r, q), whenever row p of the x block is row r of x, the
    weight block is W transposed, the bias block is b as a row, and lane p of the mask block is row r's bit read as a
    number: the product with that number is the selection on the bit. -/
theorem entry_eq (v0 : Vec Ideal S4096x128 .f32) (v1 : Vec Ideal S128x128 .f32) (v4 : Vec Ideal S1x1x4096 .f32)
    (v7 : Vec Ideal S1x128 .f32) (X : FVec Ideal ⟨2, ![262144, 128]⟩ .f32) (a : IVec ⟨1, ![262144]⟩ 1)
    (W : FVec Ideal ⟨2, ![128, 128]⟩ .f32) (b : FVec Ideal ⟨1, ![128]⟩ .f32) (r : Fin 262144) (p : Fin 4096) (q : Fin 128)
    (hx : ∀ k : Fin 128, v0 (ix2 p k) = X (ix2 r k)) (hw : ∀ k : Fin 128, v1 (ix2 k q) = W (ix2 q k))
    (hb : v7 (ix2 (0 : Fin 1) q) = b (ix1 q))
    (hm : v4 (ix3 (0 : Fin 1) (0 : Fin 1) p) = (((a (ix1 r)).toNat : ℝ) : EReal)) :
    k0_pay1 (F := Ideal) v0 v1 v4 v7 (ix2 p q) = masked X a W b (ix2 r q) := by
  rw [pay_apply, hb, hm, Finset.sum_congr rfl fun k _ => by rw [hx k, hw k]]
  exact mul_bit _ _

end Cert.KernelIdeal.Body

end
-- ==== Proof.Blocks.lean ====
/-
  From what each grid point writes back to the whole result array.

  The grid has 64 points; point t works on rows 4096 t … 4096 t + 4095. Before the launch the host converts the mask
  bits to numbers and lays them out as 64 lane-major rows [64, 1, 4096], transposes W, and views b as one row.
  Point t's blocks are: rows 4096 t … of x; row t of the laid-out mask; the whole transposed weights; the bias row.
  With the body's stored value read entry by entry, entry (p, q) of what point t writes back is the masked affine
  map at (4096 t + p, q); the 64 row blocks tile the result, so the result array is the masked affine map.
-/
import proofs.«114817_g37915971289107_cont_8to1_b_591_4_alg».proof.Proof.Gen.KernelIdeal.Value
import proofs.«114817_g37915971289107_cont_8to1_b_591_4_alg».proof.Proof.Body
import proofs.«114817_g37915971289107_cont_8to1_b_591_4_alg».proof.Proof.Spec
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.MaskedLinear
open Idealize.ShloMosaic.Pipeline (Dat)

variable (m : (ℓ : Loc nD τ sig) → Buf (Elt Ideal) ℓ) (ρ : Dev nD → PrngReg)

/-! ## The arrays the host writes before the launch -/

/-- The mask as numbers, 64 rows of 4096 lanes. -/
theorem maskrows_eq (c : Dev nD) :
    (V m c main_v1 : S64x1x4096.Idx → EReal)
      = shapeCast S64x1x4096 (uitofp (F := Ideal) .f32 (m ((c : Thread nD τ).loc main_arg1))) shapeCasts_S262144_S64x1x4096 := by
  dsimp only [V, hostOps0]; after_results <;> rfl

/-- The transposed weights. -/
theorem wt_eq (c : Dev nD) :
    (V m c main_v2 : S128x128.Idx → EReal)
      = transpose S128x128 [1, 0] (m ((c : Thread nD τ).loc main_arg2)) transposes_S128x128_S128x128_1_0 := by
  dsimp only [V, hostOps0]; after_results <;> rfl

/-- The bias as one row. -/
theorem biasrow_eq (c : Dev nD) :
    (V m c main_v3 : S1x128.Idx → EReal)
      = shapeCast S1x128 (m ((c : Thread nD τ).loc main_arg3)) shapeCasts_S128_S1x128 := by
  dsimp only [V, hostOps0]; after_results <;> rfl

/-! ## Those arrays read at an entry -/

/-- Lane p of mask row t is the bit of row 4096 t + p, read as a number. -/
theorem maskrows_apply (c : Dev nD) (t : Fin 64) (p : Fin 4096) (hr : t.val * 4096 + p.val < 262144) :
    V m c main_v1 (ix3 t (0 : Fin 1) p)
      = (((m ((c : Thread nD τ).loc main_arg1) (ix1 ⟨t.val * 4096 + p.val, hr⟩)).toNat : ℝ) : EReal) := by
  rw [maskrows_eq]
  refine (shapeCast_apply _ shapeCasts_S262144_S64x1x4096 (ix3 t (0 : Fin 1) p) (ix1 ⟨t.val * 4096 + p.val, hr⟩) ?_).trans rfl
  rw [Shape.rowMajor_val_one, Shape.rowMajor_val_three]
  show t.val * 4096 + p.val = (t.val * 1 + 0) * 4096 + p.val
  omega

/-- The transposed weights at (input k, output q) are W at (q, k). -/
theorem wt_apply (c : Dev nD) (k q : Fin 128) :
    V m c main_v2 (ix2 k q) = m ((c : Thread nD τ).loc main_arg2) (ix2 q k) := by
  rw [wt_eq]
  exact transpose_ix2_apply _ _ k q

/-- The bias row at (0, q) is b at q. -/
theorem biasrow_apply (c : Dev nD) (u : Fin 1) (q : Fin 128) :
    V m c main_v3 (ix2 u q) = m ((c : Thread nD τ).loc main_arg3) (ix1 q) := by
  rw [biasrow_eq]
  exact shapeCast_a_1a_apply _ _ u q

/-! ## The blocks of a grid point -/

/-- The block index of each window at point t, decided over the 64 points: x, the mask rows and the result move
    with t along their leading axis; the weights and the bias stay. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's block is a row of the array. -/
theorem row_lt (t : Fin cfg0.N) (p : Fin 4096) : t.val * 4096 + p.val < 262144 := by
  have ht : t.val < 64 := lt_of_lt_of_eq t.isLt N_0
  have hp := p.isLt
  omega

/-- The array row under row p of point t's block. -/
abbrev rowOf (t : Fin cfg0.N) (p : Fin 4096) : Fin 262144 := ⟨t.val * 4096 + p.val, row_lt t p⟩

/-- Point t's block of x. -/
theorem xblk_apply (c : Dev nD) (t : Fin cfg0.N) (p : Fin 4096) (k : Fin 128) :
    iblk m c 0 t (ix2 p k) = m ((c : Thread nD τ).loc main_arg0) (ix2 (rowOf t p) k) := by
  obtain ⟨e0, e1, -⟩ := idx_facts t
  rw [← V_main_arg0 m c]
  show V m c main_arg0 (((cfg0.win 0).blk t).view.emb (ix2 p k)) = V m c main_arg0 (ix2 (rowOf t p) k)
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 128 + 1 * k.val = k.val; omega

/-- Point t's block of the mask rows: row t. -/
theorem maskblk_apply (c : Dev nD) (t : Fin cfg0.N) (p : Fin 4096) :
    iblk m c 1 t (ix3 (0 : Fin 1) (0 : Fin 1) p)
      = (((m ((c : Thread nD τ).loc main_arg1) (ix1 (rowOf t p))).toNat : ℝ) : EReal) := by
  obtain ⟨-, -, e0, e1, e2, -⟩ := idx_facts t
  have ht : t.val < 64 := lt_of_lt_of_eq t.isLt N_0
  rw [← maskrows_apply m c ⟨t.val, ht⟩ p (row_lt t p)]
  show V m c main_v1 (((cfg0.win 1).blk t).view.emb (ix3 (0 : Fin 1) (0 : Fin 1) p)) = V m c main_v1 (ix3 ⟨t.val, ht⟩ (0 : Fin 1) p)
  refine congrArg _ (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 4096 + 1 * p.val = p.val; omega

/-- Point t's block of the transposed weights: all of them. -/
theorem wtblk_apply (c : Dev nD) (t : Fin cfg0.N) (k q : Fin 128) :
    iblk m c 2 t (ix2 k q) = m ((c : Thread nD τ).loc main_arg2) (ix2 q k) := by
  obtain ⟨-, -, -, -, -, e0, e1, -⟩ := idx_facts t
  rw [← wt_apply m c k q]
  show V m c main_v2 (((cfg0.win 2).blk t).view.emb (ix2 k q)) = V m c main_v2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- Point t's block of the bias row: all of it. -/
theorem biasblk_apply (c : Dev nD) (t : Fin cfg0.N) (q : Fin 128) :
    iblk m c 3 t (ix2 (0 : Fin 1) q) = m ((c : Thread nD τ).loc main_arg3) (ix1 q) := by
  obtain ⟨-, -, -, -, -, -, -, e0, e1, -⟩ := idx_facts t
  rw [← biasrow_apply m c (0 : Fin 1) q]
  show V m c main_v3 (((cfg0.win 3).blk t).view.emb (ix2 (0 : Fin 1) q)) = V m c main_v3 (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- Entry (p, q) of point t's result block sits at (4096 t + p, q) of the result. -/
theorem outblk_emb (t : Fin cfg0.N) (p : Fin 4096) (q : Fin 128) :
    ((cfg0.win 4).blk t).view.emb (ix2 p q) = ix2 (rowOf t p) q := by
  obtain ⟨-, -, -, -, -, -, -, -, -, e0, e1⟩ := idx_facts t
  refine funext fun a => Fin.ext ?_
  match a with
  | ⟨0, _⟩ => show win0_4.index t (0 : Fin 2) * 4096 + 1 * p.val = t.val * 4096 + p.val; omega
  | ⟨1, _⟩ => show win0_4.index t (1 : Fin 2) * 128 + 1 * q.val = q.val; omega

/-! ## What a point writes back -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- Point t writes back block t of the masked affine map of the four arguments: at (p, q) the body's stored value is
    (sum_k x(4096 t + p, k) W(q, k) + b(q)) times the bit of row 4096 t + p read as a number, which is the selection
    on that bit between the sum and zero. -/
theorem flushed_eq (c : Dev nD) (t : Fin cfg0.N) :
    (dats m 0 c).flushed 4 t = ((cfg0.win 4).blk t).view.read (Elt Ideal)
      (masked (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero zeros2]
  simp only [View.ld_unit_zero (S := S4096x128) zeros2, View.ld_unit_zero (S := S128x128) zeros2,
    View.ld_unit_zero (S := S1x1x4096) zeros3, View.ld_unit_zero (S := S1x128) zeros2]
  funext j
  obtain ⟨p, q, rfl⟩ : ∃ (p : Fin 4096) (q : Fin 128), j = ix2 p q := ⟨j 0, j 1, eq_ix2 j⟩
  show k0_pay1 (F := Ideal) (iblk m c 0 t) (iblk m c 2 t) (iblk m c 1 t) (iblk m c 3 t) (ix2 p q)
    = masked (m ((c : Thread nD τ).loc main_arg0)) (m ((c : Thread nD τ).loc main_arg1))
        (m ((c : Thread nD τ).loc main_arg2)) (m ((c : Thread nD τ).loc main_arg3)) (((cfg0.win 4).blk t).view.emb (ix2 p q))
  rw [outblk_emb t p q]
  exact Body.entry_eq (iblk m c 0 t) (iblk m c 2 t) (iblk m c 1 t) (iblk m c 3 t) _ _ _ _ (rowOf t p) p q
    (fun k => xblk_apply m c t p k) (fun k => wtblk_apply m c t k q) (biasblk_apply m c t q) (maskblk_apply m c t p)

/-! ## The 64 row blocks tile the result -/

/-- An entry is in point t's block when each coordinate is in the block's range on its axis. -/
theorem mem_blk (t : Fin cfg0.N) (i : S262144x128.Idx) :
    i ∈ ((cfg0.win 4).blk t).view.set ↔ ∀ a : Fin 2, win0_4.index t a * S4096x128.size a ≤ (i a).val ∧ (i a).val < win0_4.index t a * S4096x128.size a + S4096x128.size a := by
  show i ∈ ((View.whole main_v4).slice (win0_4.rect t)).set ↔ _
  rw [View.set_slice_whole, Rect.mem_set_unit]
  exact Iff.rfl

/-- Row r of the result is in the block of point r / 4096. -/
theorem cover (i : S262144x128.Idx) : ∃ t : Fin cfg0.N, (cfg0.win 4).flush t = true ∧ i ∈ ((cfg0.win 4).blk t).view.set := by
  have hi0 : (i 0).val < 262144 := (i 0).isLt
  have hi1 : (i 1).val < 128 := (i 1).isLt
  have hN : grid0.N = 64 := N_0
  have hlt : (i 0).val / 4096 < grid0.N := by rw [hN]; omega
  obtain ⟨-, -, -, -, -, -, -, -, -, e0, e1⟩ := idx_facts ⟨(i 0).val / 4096, hlt⟩
  refine ⟨⟨(i 0).val / 4096, hlt⟩, flush0_4 _, ?_⟩
  rw [mem_blk]
  intro a
  match a with
  | ⟨0, _⟩ =>
    show win0_4.index ⟨(i 0).val / 4096, hlt⟩ (0 : Fin 2) * 4096 ≤ (i 0).val ∧ (i 0).val < win0_4.index ⟨(i 0).val / 4096, hlt⟩ (0 : Fin 2) * 4096 + 4096
    rw [e0]
    show (i 0).val / 4096 * 4096 ≤ (i 0).val ∧ (i 0).val < (i 0).val / 4096 * 4096 + 4096
    omega
  | ⟨1, _⟩ =>
    show win0_4.index ⟨(i 0).val / 4096, hlt⟩ (1 : Fin 2) * 128 ≤ (i 1).val ∧ (i 1).val < win0_4.index ⟨(i 0).val / 4096, hlt⟩ (1 : Fin 2) * 128 + 128
    rw [e1]
    omega

/-! ## The result array, and the run -/

/-- After the last point the result array is the masked affine map of the four arguments. -/
theorem final (c : Dev nD) :
    (dats m 0 c).arrAt 4 cfg0.N = masked (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

/-- Every weakly fair execution of the idealized kernel ends with the result array at the masked affine map of the
    arguments, and the arguments as launched. -/
theorem run : θ_run defs (onTc (τ := τ) (main (F := Ideal))) ⟨m, fun _ => 0, ρ⟩ fun r => ∀ c : Dev nD,
      r.2.mem ((c : Thread nD τ).loc main_v4) = masked (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefIsSpec.lean ====
/-
  The reference, read entry by entry, is the masked affine map.

  The reference transposes W, contracts x with the transpose over the shared axis, adds the bias broadcast down
  the rows, broadcasts the mask bit of each row along that row, and selects between the sum and a zero constant.
  Read at an entry (r, j): the contraction is the sum over k of x(r, k) times the transpose at (k, j), which is
  W(j, k); the bias term is b(j); the selecting bit is the mask at r; the other branch is the word of +0, which is
  the real number zero.
-/
import proofs.«114817_g37915971289107_cont_8to1_b_591_4_alg».proof.Proof.Gen.ReferenceIdeal.Read
import proofs.«114817_g37915971289107_cont_8to1_b_591_4_alg».proof.Proof.Spec

noncomputable section

namespace Cert.ReferenceIdeal.RefValue

open Cert.ReferenceIdeal Cert.ReferenceIdeal.Read Idealize.ShloMosaic Idealize.ShloMosaic.ValueIdx Cert.MaskedLinear

/-- The row whose mask bit an entry's selection reads. -/
theorem mask_idx (i : S262144x128.Idx) : idx_main_v5 (idx_main_call0_v0 i) = ix1 (i 0) :=
  funext fun a => Fin.ext (by match a with | ⟨0, _⟩ => rfl)

/-- The left factor of term k of an entry's contraction. -/
theorem lhs_idx (i : S262144x128.Idx) (k : Fin 128) : lidx_main_v1 i k = ix2 (i 0) k :=
  funext fun a => Fin.ext (by match a with | ⟨0, _⟩ => rfl | ⟨1, _⟩ => rfl)

/-- The right factor of term k, read through the transpose: W at (output feature, k). -/
theorem rhs_idx (i : S262144x128.Idx) (k : Fin 128) : idx_main_v0 (ridx_main_v1 i k) = ix2 (i 1) k :=
  funext fun a => Fin.ext (by match a with | ⟨0, _⟩ => rfl | ⟨1, _⟩ => rfl)

/-- The bias entry an entry's sum adds. -/
theorem bias_idx (i : S262144x128.Idx) : idx_main_v2 (idx_main_v3 i) = ix1 (i 1) :=
  funext fun a => Fin.ext (by match a with | ⟨0, _⟩ => rfl)

/-- The reference's result is the masked affine map of its four arguments. -/
theorem ref_eq (x0 : (⟨S262144x128, .f32⟩ : BufTy).Contents (Elt Ideal)) (x1 : (⟨S262144, .i1⟩ : BufTy).Contents (Elt Ideal))
    (x2 : (⟨S128x128, .f32⟩ : BufTy).Contents (Elt Ideal)) (x3 : (⟨S128, .f32⟩ : BufTy).Contents (Elt Ideal)) :
    val_main_v6 (F := Ideal) x0 x1 x2 x3 = masked x0 x1 x2 x3 := by
  funext i
  rw [val_main_v6_apply, val_main_call0_v0_apply, val_main_v5_apply, val_main_v4_apply, val_main_v1_apply,
    val_main_v3_apply, val_main_v2_apply, val_main_call0_v1_apply, val_main_cst_apply]
  simp only [val_main_v0_apply, mask_idx, lhs_idx, rhs_idx, bias_idx, Ideal.addf_def, Ideal.ofBits_def,
    Ideal.ofBits_zero_f32]
  rfl

end Cert.ReferenceIdeal.RefValue

end
-- ==== Proof.lean ====
/-
  A fused masked linear layer against its plain reference, over the extended reals.

  Both programs compute, for 262144 rows of 128 features, a weight matrix W (128 outputs by 128 inputs), a bias b and
  one mask bit per row, the array whose entry (r, j) is  sum_k x(r, k) W(j, k) + b(j)  where row r's bit is set and
  zero where it is clear (Proof/Spec.lean, `masked`).

  The reference forms the whole affine map and selects, entry by entry, between it and a zero constant on the row's
  bit: read one operation at a time its result is `masked` of the arguments (Proof/RefIsSpec.lean).

  The kernel walks the rows in 64 blocks of 4096. The host first converts the bits to the numbers 0 and 1, lays them
  out as 64 lane-major rows, and transposes W. At each block the body contracts the 4096 rows with the transposed
  weights, adds the bias row, and multiplies each row by its own bit's number (Proof/Body.lean): a product with 1 is
  the other factor and a product with 0 is 0 for every extended real, so the product is the reference's selection,
  with no finiteness needed of anything. The 64 row blocks tile the result, so the result array is `masked` of the
  arguments (Proof/Blocks.lean).

  Hence the two runs end with equal results from agreeing arguments. The three frame claims are the generated frame
  runs (the reference's is its generated run with the result dropped), and the idealization rewrote nothing.
-/
import proofs.«114817_g37915971289107_cont_8to1_b_591_4_alg».proof.Defs
import proofs.«114817_g37915971289107_cont_8to1_b_591_4_alg».proof.Proof.Gen.Kernel
import proofs.«114817_g37915971289107_cont_8to1_b_591_4_alg».proof.Proof.Gen.Kernel.Skeleton
import proofs.«114817_g37915971289107_cont_8to1_b_591_4_alg».proof.Proof.Gen.Kernel.Launch
import proofs.«114817_g37915971289107_cont_8to1_b_591_4_alg».proof.Proof.Gen.Kernel.Points
import proofs.«114817_g37915971289107_cont_8to1_b_591_4_alg».proof.Proof.Gen.Kernel.Frame
import proofs.«114817_g37915971289107_cont_8to1_b_591_4_alg».proof.Proof.Gen.KernelIdeal
import proofs.«114817_g37915971289107_cont_8to1_b_591_4_alg».proof.Proof.Gen.KernelIdeal.Skeleton
import proofs.«114817_g37915971289107_cont_8to1_b_591_4_alg».proof.Proof.Gen.KernelIdeal.Launch
import proofs.«114817_g37915971289107_cont_8to1_b_591_4_alg».proof.Proof.Gen.KernelIdeal.Points
import proofs.«114817_g37915971289107_cont_8to1_b_591_4_alg».proof.Proof.Gen.KernelIdeal.Frame
import proofs.«114817_g37915971289107_cont_8to1_b_591_4_alg».proof.Proof.Gen.ReferenceIdeal
import proofs.«114817_g37915971289107_cont_8to1_b_591_4_alg».proof.Proof.Gen.Pre_finite_inputs
import proofs.«114817_g37915971289107_cont_8to1_b_591_4_alg».proof.Proof.Gen.KernelIdeal.Value
import proofs.«114817_g37915971289107_cont_8to1_b_591_4_alg».proof.Proof.Gen.ReferenceIdeal.Run
import proofs.«114817_g37915971289107_cont_8to1_b_591_4_alg».proof.Proof.Gen.ReferenceIdeal.Read
import proofs.«114817_g37915971289107_cont_8to1_b_591_4_alg».proof.Proof.Blocks
import proofs.«114817_g37915971289107_cont_8to1_b_591_4_alg».proof.Proof.RefIsSpec
import Idealize.ShloMosaic.Adequacy
import Idealize.ShloMosaic.Init

noncomputable section

namespace Cert.Proof

open Idealize.ShloMosaic Idealize.SL.Sem

/-- The kernel as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From agreeing arguments both runs end with the result at the masked affine map of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
